-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x4096 : Shape := ⟨3, ![8, 32, 4096]⟩
abbrev S4096x14336 : Shape := ⟨2, ![4096, 14336]⟩
abbrev S32x14336 : Shape := ⟨2, ![32, 14336]⟩
abbrev S14336 : Shape := ⟨1, ![14336]⟩
abbrev S_ : Shape := ⟨0, ![]⟩

class Facts : Prop where
  bcast_S_S8x32x4096 : S_.BroadcastsInDim S8x32x4096 (![] : Fin 0 → Fin S8x32x4096.rank)
  reducesTo_S8x32x4096_S_d0_1_2 : S8x32x4096.ReducesTo [0, 1, 2] S_
  h_S_ : 0 < S_.numel
  bcast_S_S32x14336 : S_.BroadcastsInDim S32x14336 (![] : Fin 0 → Fin S32x14336.rank)
  reducesTo_S32x14336_S_d0_1 : S32x14336.ReducesTo [0, 1] S_
  bcast_S_S14336 : S_.BroadcastsInDim S14336 (![] : Fin 0 → Fin S14336.rank)
  reducesTo_S14336_S_d0 : S14336.ReducesTo [0] S_

variable [Facts]

def fn_part1 {F : FTy → Type} [FloatOps F] (main_v13 : IVec S_ 1) (main_v16 : IVec S14336 1) : IVec S_ 1 :=
  let main_c_5 : IVec S_ 1 := constantI S_ 1 1#1
  let main_v17 : IVec S_ 1 := (fun x v => Host.reduce IntOp.andi x v reducesTo_S14336_S_d0 h_S_) main_v16 main_c_5
  let main_v18 : IVec S_ 1 := andi main_v13 main_v17
  main_v18

def fn {F : FTy → Type} [FloatOps F] (main_arg0 : FVec F S8x32x4096 .f32) (main_arg1 : IVec S4096x14336 32) (main_arg2 : FVec F S32x14336 .f32) (main_arg3 : FVec F S32x14336 .f32) (main_arg4 : FVec F S14336 .f32) : IVec S_ 1 :=
  let main_v0 : FVec F S8x32x4096 .f32 := Host.absf main_arg0
  let main_cst : FVec F S_ .f32 := constant S_ .f32 0x7F800000#32
  let main_v1 : FVec F S8x32x4096 .f32 := broadcastInDim S8x32x4096 ![] bcast_S_S8x32x4096 main_cst
  let main_v2 : IVec S8x32x4096 1 := cmpf .olt main_v0 main_v1
  let main_c : IVec S_ 1 := constantI S_ 1 1#1
  let main_v3 : IVec S_ 1 := (fun x v => Host.reduce IntOp.andi x v reducesTo_S8x32x4096_S_d0_1_2 h_S_) main_v2 main_c
  let main_v4 : FVec F S32x14336 .f32 := Host.absf main_arg2
  let main_cst_0 : FVec F S_ .f32 := constant S_ .f32 0x7F800000#32
  let main_v5 : FVec F S32x14336 .f32 := broadcastInDim S32x14336 ![] bcast_S_S32x14336 main_cst_0
  let main_v6 : IVec S32x14336 1 := cmpf .olt main_v4 main_v5
  let main_c_1 : IVec S_ 1 := constantI S_ 1 1#1
  let main_v7 : IVec S_ 1 := (fun x v => Host.reduce IntOp.andi x v reducesTo_S32x14336_S_d0_1 h_S_) main_v6 main_c_1
  let main_v8 : IVec S_ 1 := andi main_v3 main_v7
  let main_v9 : FVec F S32x14336 .f32 := Host.absf main_arg3
  let main_cst_2 : FVec F S_ .f32 := constant S_ .f32 0x7F800000#32
  let main_v10 : FVec F S32x14336 .f32 := broadcastInDim S32x14336 ![] bcast_S_S32x14336 main_cst_2
  let main_v11 : IVec S32x14336 1 := cmpf .olt main_v9 main_v10
  let main_c_3 : IVec S_ 1 := constantI S_ 1 1#1
  let main_v12 : IVec S_ 1 := (fun x v => Host.reduce IntOp.andi x v reducesTo_S32x14336_S_d0_1 h_S_) main_v11 main_c_3
  let main_v13 : IVec S_ 1 := andi main_v8 main_v12
  let main_v14 : FVec F S14336 .f32 := Host.absf main_arg4
  let main_cst_4 : FVec F S_ .f32 := constant S_ .f32 0x7F800000#32
  let main_v15 : FVec F S14336 .f32 := broadcastInDim S14336 ![] bcast_S_S14336 main_cst_4
  let main_v16 : IVec S14336 1 := cmpf .olt main_v14 main_v15
  fn_part1 (F := F) main_v13 main_v16
-- ==== Kernel.lean ====
abbrev S8x32x4096 : Shape := ⟨3, ![8, 32, 4096]⟩
abbrev S4096x14336 : Shape := ⟨2, ![4096, 14336]⟩
abbrev S32x14336 : Shape := ⟨2, ![32, 14336]⟩
abbrev S14336 : Shape := ⟨1, ![14336]⟩
abbrev S256x4096 : Shape := ⟨2, ![256, 4096]⟩
abbrev S1x14336 : Shape := ⟨2, ![1, 14336]⟩
abbrev S256x14336 : Shape := ⟨2, ![256, 14336]⟩
abbrev S256x1024 : Shape := ⟨2, ![256, 1024]⟩
abbrev S1024x1024 : Shape := ⟨2, ![1024, 1024]⟩
abbrev S8x1024 : Shape := ⟨2, ![8, 1024]⟩
abbrev S1x1024 : Shape := ⟨2, ![1, 1024]⟩
abbrev S8x128x1024 : Shape := ⟨3, ![8, 128, 1024]⟩
abbrev S8x1x1024 : Shape := ⟨3, ![8, 1, 1024]⟩
abbrev S8x32x14336 : Shape := ⟨3, ![8, 32, 14336]⟩

abbrev nBuf : Space → Nat
  | .hbm => 9
  | .vmem => 13
  | .smem => 0
  | _ => 0

abbrev bufTy : (tb : Table) → Fin (tcTables nBuf tb) → BufTy
  | .hbm, ⟨0, _⟩ => ⟨S8x32x4096, .f32⟩
  | .hbm, ⟨1, _⟩ => ⟨S4096x14336, .i32⟩
  | .hbm, ⟨2, _⟩ => ⟨S32x14336, .f32⟩
  | .hbm, ⟨3, _⟩ => ⟨S32x14336, .f32⟩
  | .hbm, ⟨4, _⟩ => ⟨S14336, .f32⟩
  | .hbm, ⟨5, _⟩ => ⟨S256x4096, .f32⟩
  | .hbm, ⟨6, _⟩ => ⟨S1x14336, .f32⟩
  | .hbm, ⟨7, _⟩ => ⟨S256x14336, .f32⟩
  | .hbm, ⟨8, _⟩ => ⟨S8x32x14336, .f32⟩
  | .local _ .vmem, ⟨0, _⟩ => ⟨S256x1024, .f32⟩
  | .local _ .vmem, ⟨1, _⟩ => ⟨S256x1024, .f32⟩
  | .local _ .vmem, ⟨2, _⟩ => ⟨S1024x1024, .i32⟩
  | .local _ .vmem, ⟨3, _⟩ => ⟨S1024x1024, .i32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S8x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![14, 4], ![false, false]⟩

def k0_cond2 (i : grid0.Coords) : BitVec 1 :=
  let arg1 : BitVec 32 := BitVec.ofNat 32 (i 1).val
  let c3_i32 : BitVec 32 := 3#32
  let v25 : BitVec 1 := Scalar.cmpi .eq arg1 c3_i32
  let v26 : BitVec 32 := Scalar.extui v25
  let c0_i32_12 : BitVec 32 := 0#32
  let v27 : BitVec 1 := Scalar.cmpi .ne v26 c0_i32_12
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S8x32x4096_S256x4096 : S8x32x4096.ShapeCasts S256x4096
  shapeCasts_S14336_S1x14336 : S14336.ShapeCasts S1x14336
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S8x128x1024 : S1024x1024.ShapeCasts S8x128x1024
  inb_S8x1024_S8x1024_0_0 : ∀ a, (![0, 0] : Fin 2 → Nat) a + S8x1024.size a ≤ S8x1024.size a
  h_S8x1024 : 0 < S8x1024.numel
  shapeCasts_S8x1024_S8x1x1024 : S8x1024.ShapeCasts S8x1x1024
  broadcasts_S8x1x1024_S8x128x1024 : S8x1x1024.Broadcasts S8x128x1024
  shapeCasts_S8x128x1024_S1024x1024 : S8x128x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x14336_S8x32x14336 : S256x14336.ShapeCasts S8x32x14336
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S256x4096.size a
  hwx0_0 : ∀ i : grid0.Coords, EltTy.bits .f32 = 32 ∨ (Rect.block (s := S256x4096) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x14336.size a
  hwx0_1 : ∀ i : grid0.Coords, EltTy.bits .i32 = 32 ∨ (Rect.block (s := S4096x14336) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S32x14336.size a
  hwx0_2 : ∀ i : grid0.Coords, EltTy.bits .f32 = 32 ∨ (Rect.block (s := S32x14336) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S32x14336.size a
  hwx0_3 : ∀ i : grid0.Coords, EltTy.bits .f32 = 32 ∨ (Rect.block (s := S32x14336) S8x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x14336.size a
  hwx0_4 : ∀ i : grid0.Coords, EltTy.bits .f32 = 32 ∨ (Rect.block (s := S1x14336) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x14336.size a
  hwx0_5 : ∀ i : grid0.Coords, EltTy.bits .f32 = 32 ∨ (Rect.block (s := S256x14336) S256x1024.size (cc0_transform_5 i) (hinb0_5 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x32x4096 : Shape := ⟨3, ![8, 32, 4096]⟩
abbrev S4096x14336 : Shape := ⟨2, ![4096, 14336]⟩
abbrev S32x14336 : Shape := ⟨2, ![32, 14336]⟩
abbrev S14336 : Shape := ⟨1, ![14336]⟩
abbrev S32x128x14336 : Shape := ⟨3, ![32, 128, 14336]⟩
abbrev S32x1x14336 : Shape := ⟨3, ![32, 1, 14336]⟩
abbrev S8x32x14336 : Shape := ⟨3, ![8, 32, 14336]⟩
abbrev S1x1x14336 : Shape := ⟨3, ![1, 1, 14336]⟩

abbrev nBuf : Space → Nat
  | .hbm => 18
  | .vmem => 0
  | .smem => 0
  | _ => 0

abbrev bufTy : (tb : Table) → Fin (tcTables nBuf tb) → BufTy
  | .hbm, ⟨0, _⟩ => ⟨S8x32x4096, .f32⟩
  | .hbm, ⟨1, _⟩ => ⟨S4096x14336, .i32⟩
  | .hbm, ⟨2, _⟩ => ⟨S32x14336, .f32⟩
  | .hbm, ⟨3, _⟩ => ⟨S32x14336, .f32⟩
  | .hbm, ⟨4, _⟩ => ⟨S14336, .f32⟩
  | .hbm, ⟨5, _⟩ => ⟨S4096x14336, .f32⟩
  | .hbm, ⟨6, _⟩ => ⟨S32x128x14336, .f32⟩
  | .hbm, ⟨7, _⟩ => ⟨S32x1x14336, .f32⟩
  | .hbm, ⟨8, _⟩ => ⟨S32x128x14336, .f32⟩
  | .hbm, ⟨9, _⟩ => ⟨S32x128x14336, .f32⟩
  | .hbm, ⟨10, _⟩ => ⟨S32x1x14336, .f32⟩
  | .hbm, ⟨11, _⟩ => ⟨S32x128x14336, .f32⟩
  | .hbm, ⟨12, _⟩ => ⟨S32x128x14336, .f32⟩
  | .hbm, ⟨13, _⟩ => ⟨S4096x14336, .f32⟩
  | .hbm, ⟨14, _⟩ => ⟨S8x32x14336, .f32⟩
  | .hbm, ⟨15, _⟩ => ⟨S1x1x14336, .f32⟩
  | .hbm, ⟨16, _⟩ => ⟨S8x32x14336, .f32⟩
  | .hbm, ⟨17, _⟩ => ⟨S8x32x14336, .f32⟩
  | _, _ => ⟨S8x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  shapeCasts_S4096x14336_S32x128x14336 : S4096x14336.ShapeCasts S32x128x14336
  bcast_S32x14336_S32x1x14336_0_2 : S32x14336.BroadcastsInDim S32x1x14336 (![0, 2] : Fin 2 → Fin S32x1x14336.rank)
  bcast_S32x1x14336_S32x128x14336_0_1_2 : S32x1x14336.BroadcastsInDim S32x128x14336 (![0, 1, 2] : Fin 3 → Fin S32x128x14336.rank)
  shapeCasts_S32x128x14336_S4096x14336 : S32x128x14336.ShapeCasts S4096x14336
  bcast_S14336_S1x1x14336_2 : S14336.BroadcastsInDim S1x1x14336 (![2] : Fin 1 → Fin S1x1x14336.rank)
  bcast_S1x1x14336_S8x32x14336_0_1_2 : S1x1x14336.BroadcastsInDim S8x32x14336 (![0, 1, 2] : Fin 3 → Fin S8x32x14336.rank)
  dot_S8x32x4096_S4096x14336_S8x32x14336_2_0_01_1_n_n_wf : DotDims.WF S8x32x4096 S4096x14336 S8x32x14336 [2] [0] [0, 1] [1] [] []

variable [Facts₀]

def dot_S8x32x4096_S4096x14336_S8x32x14336_2_0_01_1_n_n : DotDims S8x32x4096 S4096x14336 S8x32x14336 where
  lhsContracting := [2]
  rhsContracting := [0]
  lhsNonContracting := [0, 1]
  rhsNonContracting := [1]
  lhsBatch := []
  rhsBatch := []
  wf := dot_S8x32x4096_S4096x14336_S8x32x14336_2_0_01_1_n_n_wf

class Facts : Prop extends Facts₀ where

variable [Facts]
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.DequantProduct.lean ====
/-
  The affine group-wise dequantised matrix product, as ONE function of the five argument arrays.

  Feature rows come in 32 groups of 128 consecutive rows; group `g` has one scale and one zero point per output
  column. The weight is `w[k, n] = q[k, n] · scale[k / 128, n] + zero[k / 128, n]` (the integer `q` read signed,
  exactly), and the result is `y[b, s, n] = (∑ k, x[b, s, k] · w[k, n]) + bias[n]` over the extended reals.

  A computation that walks the 4096 feature rows in four tiles of 1024, starting an accumulator at zero and adding one
  tile's partial sum at a time, ends at `(((0 + t₀) + t₁) + t₂) + t₃`. Addition of extended reals is commutative and
  associative with neutral element 0 (infinite entries included), so this is the sum over all 4096 rows: no
  finiteness of the entries is used anywhere.
-/
import Idealize.ShloMosaic.PureOps.Ideal
import Idealize.ShloMosaic.Lib.ValueIdx
import proofs.«132491_j19292993094040_1_alg».proof.Proof.LibBlockSum

noncomputable section

namespace Cert.DequantProduct

open Idealize.ShloMosaic Idealize.ShloMosaic.ValueIdx
open scoped BigOperators

abbrev Sx : Shape := ⟨3, ![8, 32, 4096]⟩
abbrev Sq : Shape := ⟨2, ![4096, 14336]⟩
abbrev Sg : Shape := ⟨2, ![32, 14336]⟩
abbrev Sb : Shape := ⟨1, ![14336]⟩
abbrev Sy : Shape := ⟨3, ![8, 32, 14336]⟩
abbrev Sy2 : Shape := ⟨2, ![256, 14336]⟩

/-- The group of feature row `k`: 128 consecutive rows share one scale and one zero point. -/
def grp (k : Fin 4096) : Fin 32 := ⟨k.val / 128, by have := k.isLt; omega⟩

/-- The dequantised weight `w[k, n] = q[k, n] · scale[k / 128, n] + zero[k / 128, n]`. -/
def weight (q : Sq.Idx → BitVec 32) (s z : Sg.Idx → EReal) (k : Fin 4096) (n : Fin 14336) : EReal :=
  (((q (ix2 k n)).toInt : ℝ) : EReal) * s (ix2 (grp k) n) + z (ix2 (grp k) n)

/-- `y[b, s, n] = (∑ k, x[b, s, k] · w[k, n]) + bias[n]`. -/
def product (x : Sx.Idx → EReal) (q : Sq.Idx → BitVec 32) (s z : Sg.Idx → EReal) (b : Sb.Idx → EReal) : Sy.Idx → EReal :=
  fun i => (∑ k : Fin 4096, x (ix3 (i 0) (i 1) k) * weight q s z k (i 2)) + b (ix1 (i 2))

/-! ## The same over the 256 flattened rows -/

/-- Flattened row `r = 32 b + s` of the batch: its batch coordinate and its sequence coordinate. -/
def rowB (r : Fin 256) : Fin 8 := ⟨r.val / 32, by have := r.isLt; omega⟩
def rowS (r : Fin 256) : Fin 32 := ⟨r.val % 32, Nat.mod_lt _ (by decide)⟩

/-- One term of the contraction at flattened row `r` and column `n`. -/
def term (x : Sx.Idx → EReal) (q : Sq.Idx → BitVec 32) (s z : Sg.Idx → EReal) (r : Fin 256) (n : Fin 14336)
    (k : Fin 4096) : EReal :=
  x (ix3 (rowB r) (rowS r) k) * weight q s z k n

/-- The product over the flattened rows: `y2[r, n] = (∑ k, term r n k) + bias[n]`. -/
def product2 (x : Sx.Idx → EReal) (q : Sq.Idx → BitVec 32) (s z : Sg.Idx → EReal) (b : Sb.Idx → EReal) : Sy2.Idx → EReal :=
  fun j => (∑ k : Fin 4096, term x q s z (j 0) (j 1) k) + b (ix1 (j 1))

/-- Row `32 b + s` of the flattened product is entry `(b, s)` of the product. -/
theorem product2_flat (x : Sx.Idx → EReal) (q : Sq.Idx → BitVec 32) (s z : Sg.Idx → EReal) (b : Sb.Idx → EReal)
    (i : Sy.Idx) (r : Fin 256) (hr : r.val = (i 0).val * 32 + (i 1).val) :
    product2 x q s z b (ix2 r (i 2)) = product x q s z b i := by
  have h1 : (i 1).val < 32 := (i 1).isLt
  have eB : rowB r = i 0 := Fin.ext (by show r.val / 32 = (i 0).val; omega)
  have eS : rowS r = i 1 := Fin.ext (by show r.val % 32 = (i 1).val; omega)
  show (∑ k : Fin 4096, x (ix3 (rowB r) (rowS r) k) * weight q s z k (i 2)) + b (ix1 (i 2)) = _
  rw [eB, eS]
  rfl

/-! ## Four tiles of 1024 feature rows -/

/-- The contraction's terms as a sequence over the naturals (zero past the last feature row). -/
def termN (x : Sx.Idx → EReal) (q : Sq.Idx → BitVec 32) (s z : Sg.Idx → EReal) (r : Fin 256) (n : Fin 14336)
    (k : ℕ) : EReal :=
  if h : k < 4096 then term x q s z r n ⟨k, h⟩ else 0

/-- Tile `t`'s partial sum: feature rows `1024 t` to `1024 t + 1023`. -/
def tile (x : Sx.Idx → EReal) (q : Sq.Idx → BitVec 32) (s z : Sg.Idx → EReal) (r : Fin 256) (n : Fin 14336)
    (t : ℕ) : EReal :=
  ∑ e : Fin 1024, termN x q s z r n (1024 * t + e.val)

/-- The accumulator after tile `t`: it starts at `0 + tile 0` and adds one tile at a time. -/
def acc (x : Sx.Idx → EReal) (q : Sq.Idx → BitVec 32) (s z : Sg.Idx → EReal) (r : Fin 256) (n : Fin 14336) :
    ℕ → EReal
  | 0 => 0 + tile x q s z r n 0
  | t + 1 => acc x q s z r n t + tile x q s z r n (t + 1)

/-- Within the four tiles every index is a feature row. -/
theorem tile_eq (x : Sx.Idx → EReal) (q : Sq.Idx → BitVec 32) (s z : Sg.Idx → EReal) (r : Fin 256) (n : Fin 14336)
    (t : Fin 4) :
    tile x q s z r n t.val = ∑ e : Fin 1024, term x q s z r n ⟨1024 * t.val + e.val, by have := t.isLt; have := e.isLt; omega⟩ := by
  unfold tile termN
  refine Finset.sum_congr rfl fun e _ => ?_
  rw [dif_pos]

/-- The accumulator after the fourth tile is the whole contraction. -/
theorem acc_three (x : Sx.Idx → EReal) (q : Sq.Idx → BitVec 32) (s z : Sg.Idx → EReal) (r : Fin 256) (n : Fin 14336) :
    acc x q s z r n 3 = ∑ k : Fin 4096, term x q s z r n k := by
  rw [Cert.BlockSum.running_sum (acc x q s z r n) (tile x q s z r n) (by show 0 + _ = _; rw [zero_add]) (fun _ => rfl) 3,
    Cert.BlockSum.sum_range_4, ← Cert.BlockSum.sum_blocks 4 1024 (term x q s z r n)]
  refine Finset.sum_congr rfl fun t _ => ?_
  exact tile_eq x q s z r n t

end Cert.DequantProduct

end
-- ==== Proof.ReferenceProduct.lean ====
/-
  The reference computes the dequantised product.

  Its thirteen host operations convert `q` to floats, view the 4096 feature rows as 32 groups of 128, scale and shift
  each group by its own row of scales and zero points (both spread along the 128 rows of the group), flatten back to
  4096 rows, contract `x`'s last axis against the rows, and add the bias spread over batch and sequence. Read at an
  index `(b, s, n)`: the two reshapes compose to the identity on `(k, n)` (row `k` is row `k % 128` of group
  `k / 128`), the scale and zero point are read at `(k / 128, n)`, the bias at `n`. That is `product`.
-/
import proofs.«132491_j19292993094040_1_alg».proof.Proof.Gen.ReferenceIdeal.Read
import proofs.«132491_j19292993094040_1_alg».proof.Proof.DequantProduct

noncomputable section

namespace Cert.ReferenceProduct

open Cert.ReferenceIdeal Cert.ReferenceIdeal.Read Idealize.ShloMosaic Idealize.ShloMosaic.ValueIdx Cert.DequantProduct
open scoped BigOperators

/-- The left operand of the contraction is read at `(b, s, k)`. -/
theorem lhs_index (i : S8x32x14336.Idx) (k : Fin 4096) : lidx_main_v9 i k = ix3 (i 0) (i 1) k :=
  funext fun a => Fin.ext (by match a with | ⟨0, _⟩ => rfl | ⟨1, _⟩ => rfl | ⟨2, _⟩ => rfl)

/-- Group `k / 128`, row `k % 128` of the grouped view is feature row `k`: the integer is read at `(k, n)`. -/
theorem q_index (i : S8x32x14336.Idx) (k : Fin 4096) :
    idx_main_v1 (idx_main_v8 (ridx_main_v9 i k)) = ix2 k (i 2) :=
  funext fun a => Fin.ext (by
    have hk : k.val < 4096 := k.isLt
    have hn : (i 2).val < 14336 := (i 2).isLt
    match a with
    | ⟨0, _⟩ =>
      show (((k.val * 14336 + (i 2).val) / 1835008 * 128 + (k.val * 14336 + (i 2).val) / 14336 % 128) * 14336
        + (k.val * 14336 + (i 2).val) % 14336) / 14336 = k.val
      omega
    | ⟨1, _⟩ =>
      show (((k.val * 14336 + (i 2).val) / 1835008 * 128 + (k.val * 14336 + (i 2).val) / 14336 % 128) * 14336
        + (k.val * 14336 + (i 2).val) % 14336) % 14336 = (i 2).val
      omega)

/-- The scale spread along its group's rows is read at `(k / 128, n)`. -/
theorem scale_index (i : S8x32x14336.Idx) (k : Fin 4096) :
    idx_main_v2 (idx_main_v3 (idx_main_v8 (ridx_main_v9 i k))) = ix2 (grp k) (i 2) :=
  funext fun a => Fin.ext (by
    have hk : k.val < 4096 := k.isLt
    have hn : (i 2).val < 14336 := (i 2).isLt
    match a with
    | ⟨0, _⟩ => show (k.val * 14336 + (i 2).val) / 1835008 = k.val / 128; omega
    | ⟨1, _⟩ => show (k.val * 14336 + (i 2).val) % 14336 = (i 2).val; omega)

/-- So is the zero point. -/
theorem zero_index (i : S8x32x14336.Idx) (k : Fin 4096) :
    idx_main_v5 (idx_main_v6 (idx_main_v8 (ridx_main_v9 i k))) = ix2 (grp k) (i 2) :=
  funext fun a => Fin.ext (by
    have hk : k.val < 4096 := k.isLt
    have hn : (i 2).val < 14336 := (i 2).isLt
    match a with
    | ⟨0, _⟩ => show (k.val * 14336 + (i 2).val) / 1835008 = k.val / 128; omega
    | ⟨1, _⟩ => show (k.val * 14336 + (i 2).val) % 14336 = (i 2).val; omega)

/-- The bias spread over batch and sequence is read at `n`. -/
theorem bias_index (i : S8x32x14336.Idx) : idx_main_v10 (idx_main_v11 i) = ix1 (i 2) :=
  funext fun a => Fin.ext (by match a with | ⟨0, _⟩ => rfl)

/-- The reference's last stage is the dequantised product of its arguments. -/
theorem stage_eq (x : (⟨S8x32x4096, .f32⟩ : BufTy).Contents (Elt Ideal)) (q : (⟨S4096x14336, .i32⟩ : BufTy).Contents (Elt Ideal))
    (s z : (⟨S32x14336, .f32⟩ : BufTy).Contents (Elt Ideal)) (b : (⟨S14336, .f32⟩ : BufTy).Contents (Elt Ideal)) :
    val_main_v12 (F := Ideal) x q s z b = product x q s z b := by
  funext i
  rw [val_main_v12_apply, val_main_v9_apply, val_main_v11_apply, val_main_v10_apply, bias_index]
  show (∑ k : Fin 4096, x (lidx_main_v9 i k) * val_main_v8 (F := Ideal) q s z (ridx_main_v9 i k)) + b (ix1 (i 2)) = _
  unfold product
  congr 1
  refine Finset.sum_congr rfl fun k _ => ?_
  rw [lhs_index, val_main_v8_apply, val_main_v7_apply, val_main_v4_apply, val_main_v1_apply, val_main_v0_apply,
    val_main_v3_apply, val_main_v2_apply, val_main_v6_apply, val_main_v5_apply, q_index, scale_index, zero_index]
  rfl

end Cert.ReferenceProduct

end
-- ==== Proof.BodyPieces.lean ====
/-
  What one run of the kernel body leaves behind, per control case, as the body's arithmetic of the blocks it loaded.

  The body keeps a 256 × 1024 accumulator in a scratch buffer across the four K-tiles of one column block. At the first
  tile it stores the zero block and reads it back; at every tile it adds the tile's product to the accumulator; at the
  last tile it reads the accumulator back once more and stores it, plus the bias row, into the output block. Each store
  covers its whole buffer, so what a buffer holds afterwards is the last store's value, and a load after a store reads
  that store's value. These equations hold for any float values.
-/
import proofs.«132491_j19292993094040_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Where the accumulator is not reset and the output not stored (tiles 1 and 2 of a column block): the scratch holding
    `a` is left at the accumulate step of the point's blocks over `a`. -/
theorem scratch_B (c : Dev nD) (i : grid0.Coords) (arg2 : Memref sig .tc .vmem S256x1024 .f32) (harg2 : arg2.IsWhole) (arg3 : Memref sig .tc .vmem S1024x1024 .i32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond0_0 i) (hc1 : ¬cond0_1 i)
    (x0 : Vec F S256x1024 .f32) (x1 : Vec F S1024x1024 .i32) (x2 : Vec F S8x1024 .f32) (x3 : Vec F S8x1024 .f32) (x4 : Vec F S1x1024 .f32) (xs0 : Vec F S256x1024 .f32) :
    sout0_B_0 c i arg2 harg2 arg3 harg3 arg4 harg4 arg5 harg5 arg6 harg6 arg7 harg7 arg8 harg8 hc0 hc1 x0 x1 x2 x3 x4 xs0 = k0_pay2 x1 x2 x3 x0 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 x4 xs0)]
  unfold kernelRun0_B
  dsimp only
  rw [View.canon_unit_zero hz]
  simp only [View.readAt_eq_ld, harg2.read_unread, harg3.read_unread, harg4.read_unread, harg5.read_unread, harg6.read_unread, harg7.read_unread, harg8.read_unread, View.ld_unit_zero (S := S256x1024) hz, View.ld_unit_zero (S := S1024x1024) hz, View.ld_unit_zero (S := S8x1024) hz, View.ld_unit_zero (S := S1x1024) hz]

/-- At the first tile of a column block the scratch is first set to the zero block and read back: it is left at the
    accumulate step over the zero block, whatever it held. -/
theorem scratch_A (c : Dev nD) (i : grid0.Coords) (arg2 : Memref sig .tc .vmem S256x1024 .f32) (harg2 : arg2.IsWhole) (arg3 : Memref sig .tc .vmem S1024x1024 .i32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : cond0_0 i) (hc1 : ¬cond0_1 i)
    (x0 : Vec F S256x1024 .f32) (x1 : Vec F S1024x1024 .i32) (x2 : Vec F S8x1024 .f32) (x3 : Vec F S8x1024 .f32) (x4 : Vec F S1x1024 .f32) :
    sout0_A_0 c i arg2 harg2 arg3 harg3 arg4 harg4 arg5 harg5 arg6 harg6 arg7 harg7 arg8 harg8 hc0 hc1 x0 x1 x2 x3 x4 = k0_pay2 x1 x2 x3 x0 (k0_pay1 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S256x1024) hz, View.readCov_unit_zero (S := S256x1024) _ hz]
  simp only [View.readAt_eq_ld, harg2.read_unread, harg3.read_unread, harg4.read_unread, harg5.read_unread, harg6.read_unread, harg7.read_unread, harg8.read_unread, View.ld_unit_zero (S := S256x1024) hz, View.ld_unit_zero (S := S1024x1024) hz, View.ld_unit_zero (S := S8x1024) hz, View.ld_unit_zero (S := S1x1024) hz]

/-- At the last tile the scratch is left as at tiles 1 and 2, -/
theorem scratch_C (c : Dev nD) (i : grid0.Coords) (arg2 : Memref sig .tc .vmem S256x1024 .f32) (harg2 : arg2.IsWhole) (arg3 : Memref sig .tc .vmem S1024x1024 .i32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond0_0 i) (hc1 : cond0_1 i)
    (x0 : Vec F S256x1024 .f32) (x1 : Vec F S1024x1024 .i32) (x2 : Vec F S8x1024 .f32) (x3 : Vec F S8x1024 .f32) (x4 : Vec F S1x1024 .f32) (xs0 : Vec F S256x1024 .f32) :
    sout0_C_0 c i arg2 harg2 arg3 harg3 arg4 harg4 arg5 harg5 arg6 harg6 arg7 harg7 arg8 harg8 hc0 hc1 x0 x1 x2 x3 x4 xs0 = k0_pay2 x1 x2 x3 x0 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S256x1024) hz, View.ld_unit_zero (S := S1024x1024) hz, View.ld_unit_zero (S := S8x1024) hz, View.ld_unit_zero (S := S1x1024) hz]

/-- and the output block is the scratch just written, read back, plus the bias row spread over the 256 rows. -/
theorem out_C (c : Dev nD) (i : grid0.Coords) (arg2 : Memref sig .tc .vmem S256x1024 .f32) (harg2 : arg2.IsWhole) (arg3 : Memref sig .tc .vmem S1024x1024 .i32) (harg3 : arg3.IsWhole) (arg4 : Memref sig .tc .vmem S8x1024 .f32) (harg4 : arg4.IsWhole) (arg5 : Memref sig .tc .vmem S8x1024 .f32) (harg5 : arg5.IsWhole) (arg6 : Memref sig .tc .vmem S1x1024 .f32) (harg6 : arg6.IsWhole) (arg7 : Memref sig .tc .vmem S256x1024 .f32) (harg7 : arg7.IsWhole) (arg8 : Memref sig .tc .vmem S256x1024 .f32) (harg8 : arg8.IsWhole) (hc0 : ¬cond0_0 i) (hc1 : cond0_1 i)
    (x0 : Vec F S256x1024 .f32) (x1 : Vec F S1024x1024 .i32) (x2 : Vec F S8x1024 .f32) (x3 : Vec F S8x1024 .f32) (x4 : Vec F S1x1024 .f32) (xs0 : Vec F S256x1024 .f32) :
    out0_C_5 c i arg2 harg2 arg3 harg3 arg4 harg4 arg5 harg5 arg6 harg6 arg7 harg7 arg8 harg8 hc0 hc1 x0 x1 x2 x3 x4 xs0 = k0_pay3 (k0_pay2 x1 x2 x3 x0 xs0) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, View.ld_unit_zero (S := S256x1024) hz, View.ld_unit_zero (S := S1024x1024) hz, View.ld_unit_zero (S := S8x1024) hz, View.ld_unit_zero (S := S1x1024) hz, View.readCov_unit_zero (S := S256x1024) _ hz]

end Cert.KernelIdeal.Pieces

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.TileStep.lean ====
/-
  The body's arithmetic read at an index, over the extended reals.

  * The zero block is 0 everywhere.
  * The dequantised weight block: the 1024 × 1024 integer block viewed as 8 groups of 128 rows, each group scaled and
    shifted by its own row of the 8 × 1024 scale and zero-point blocks (spread along the group's 128 rows), and viewed
    as 1024 rows again. At `(e, c)` it is `q[e, c] · s[e / 128, c] + z[e / 128, c]`: row `e` is row `e % 128` of
    group `e / 128`.
  * The accumulate step: the accumulator plus the product of the 256 × 1024 block of `x` with the weight block, taken
    into a zero accumulator; a change of float format is the identity. At `(p, c)`:
    `a[p, c] + ∑ e, x[p, e] · w[e, c]`.
  * The bias step adds the 1 × 1024 bias row spread over the 256 rows: `a[p, c] + b[0, c]`.
-/
import proofs.«132491_j19292993094040_1_alg».proof.Proof.Gen.KernelIdeal.Skeleton
import proofs.«132491_j19292993094040_1_alg».proof.Proof.LibDotFormats
import Idealize.ShloMosaic.Lib.Pipeline.Value
import Idealize.ShloMosaic.Lib.ValueIdx
import Idealize.ShloMosaic.PureOps.Ideal.Laws

noncomputable section

open Idealize.ShloMosaic Idealize.ShloMosaic.ValueIdx
open scoped BigOperators

namespace Cert.KernelIdeal.TileStep

open Cert.KernelIdeal Cert.KernelIdeal.Gen

/-- The group, within a tile of 1024 feature rows, of row `e`. -/
def grp8 (e : Fin 1024) : Fin 8 := ⟨e.val / 128, by have := e.isLt; omega⟩
/-- and its row within the group. -/
def row128 (e : Fin 1024) : Fin 128 := ⟨e.val % 128, Nat.mod_lt _ (by decide)⟩

/-- The zero block reads 0. -/
theorem zero_apply (j : S256x1024.Idx) : k0_pay1 (F := Ideal) j = 0 := by
  unfold k0_pay1
  refine (congrFun (shapeCast_self _ _) j).trans ?_
  exact Ideal.ofBits_zero_f32

/-- A row of the 8 × 1024 block, spread along its group: read at `(g, r, c)` it is the block at `(g, c)`. -/
theorem spread_apply (s : Vec Ideal S8x1024 .f32) (g : Fin 8) (r : Fin 128) (c : Fin 1024) :
    (broadcastTo S8x128x1024 (shapeCast S8x1x1024 s shapeCasts_S8x1024_S8x1x1024) broadcasts_S8x1x1024_S8x128x1024
      : FVec Ideal S8x128x1024 .f32) (ix3 g r c) = s (ix2 g c) := by
  refine (broadcastTo_apply _ broadcasts_S8x1x1024_S8x128x1024 (ix3 g r c) (ix3 g (0 : Fin 1) c) (fun a => ?_)).trans ?_
  · match a with
    | ⟨0, _⟩ => show g.val = if (8 : Nat) = 1 then 0 else g.val; rw [if_neg (by decide)]
    | ⟨1, _⟩ => show 0 = if (1 : Nat) = 1 then 0 else r.val; rw [if_pos rfl]
    | ⟨2, _⟩ => show c.val = if (1024 : Nat) = 1 then 0 else c.val; rw [if_neg (by decide)]
  · refine shapeCast_apply s shapeCasts_S8x1024_S8x1x1024 (ix3 g (0 : Fin 1) c) (ix2 g c) ?_
    rw [Shape.rowMajor_val_two, Shape.rowMajor_val_three]
    show g.val * 1024 + c.val = (g.val * 1 + 0) * 1024 + c.val
    omega

/-- The grouped view of the integer block, as floats: at `(e / 128, e % 128, c)` it is the integer at `(e, c)`. -/
theorem grouped_apply (q : Vec Ideal S1024x1024 .i32) (e c : Fin 1024) :
    (shapeCast S8x128x1024 (sitofp .f32 q) shapeCasts_S1024x1024_S8x128x1024 : FVec Ideal S8x128x1024 .f32)
      (ix3 (grp8 e) (row128 e) c) = (((q (ix2 e c)).toInt : ℝ) : EReal) := by
  refine (shapeCast_apply (sitofp .f32 q : FVec Ideal S1024x1024 .f32) shapeCasts_S1024x1024_S8x128x1024
    (ix3 (grp8 e) (row128 e) c) (ix2 e c) ?_).trans rfl
  rw [Shape.rowMajor_val_two, Shape.rowMajor_val_three]
  show e.val * 1024 + c.val = (e.val / 128 * 128 + e.val % 128) * 1024 + c.val
  omega

/-- The dequantised weight block at `(e, c)`. -/
theorem weights_apply (q : Vec Ideal S1024x1024 .i32) (s z : Vec Ideal S8x1024 .f32) (e c : Fin 1024) :
    (shapeCast S1024x1024
      (addf (mulf (shapeCast S8x128x1024 (sitofp .f32 q) shapeCasts_S1024x1024_S8x128x1024 : FVec Ideal S8x128x1024 .f32)
          (broadcastTo S8x128x1024 (shapeCast S8x1x1024 s shapeCasts_S8x1024_S8x1x1024) broadcasts_S8x1x1024_S8x128x1024))
        (broadcastTo S8x128x1024 (shapeCast S8x1x1024 z shapeCasts_S8x1024_S8x1x1024) broadcasts_S8x1x1024_S8x128x1024))
      shapeCasts_S8x128x1024_S1024x1024 : FVec Ideal S1024x1024 .f32) (ix2 e c)
      = (((q (ix2 e c)).toInt : ℝ) : EReal) * s (ix2 (grp8 e) c) + z (ix2 (grp8 e) c) := by
  refine (shapeCast_apply _ shapeCasts_S8x128x1024_S1024x1024 (ix2 e c) (ix3 (grp8 e) (row128 e) c) ?_).trans ?_
  · rw [Shape.rowMajor_val_two, Shape.rowMajor_val_three]
    show (e.val / 128 * 128 + e.val % 128) * 1024 + c.val = e.val * 1024 + c.val
    omega
  · show _ * _ + _ = _
    rw [grouped_apply, spread_apply, spread_apply]

/-- The accumulate step at `(p, c)`. -/
theorem accumulate_apply (q : Vec Ideal S1024x1024 .i32) (s z : Vec Ideal S8x1024 .f32) (x a : Vec Ideal S256x1024 .f32)
    (p : Fin 256) (c : Fin 1024) :
    k0_pay2 (F := Ideal) q s z x a (ix2 p c)
      = a (ix2 p c) + ∑ e : Fin 1024, x (ix2 p e) * ((((q (ix2 e c)).toInt : ℝ) : EReal) * s (ix2 (grp8 e) c) + z (ix2 (grp8 e) c)) := by
  unfold k0_pay2
  refine (congrFun (shapeCast_self _ _) (ix2 p c)).trans ?_
  refine congrArg (a (ix2 p c) + ·) ?_
  refine (Cert.LibDotFormats.matmul_cols_zero_apply (A := 256) (K := 1024) (B := 1024)
    dot_S256x1024_S1024x1024_S256x1024_1_0_0_1_n_n rfl rfl rfl rfl rfl rfl none _ _ p c).trans ?_
  refine Finset.sum_congr rfl fun e _ => ?_
  refine congrArg₂ (· * ·) ?_ ?_
  · exact congrFun (shapeCast_self x _) (ix2 p e)
  · exact weights_apply q s z e c

/-- The bias step at `(p, c)`. -/
theorem bias_apply (a : Vec Ideal S256x1024 .f32) (b : Vec Ideal S1x1024 .f32) (p : Fin 256) (c : Fin 1024) :
    k0_pay3 (F := Ideal) a b (ix2 p c) = a (ix2 p c) + b (ix2 (0 : Fin 1) c) := by
  unfold k0_pay3
  refine congrArg (a (ix2 p c) + ·) ?_
  refine (broadcastTo_apply _ broadcasts_S1x1024_S256x1024 (ix2 p c) (ix2 (0 : Fin 1) c) (fun d => ?_)).trans ?_
  · match d with
    | ⟨0, _⟩ => show 0 = if (1 : Nat) = 1 then 0 else p.val; rw [if_pos rfl]
    | ⟨1, _⟩ => show c.val = if (1024 : Nat) = 1 then 0 else c.val; rw [if_neg (by decide)]
  · exact congrFun (shapeCast_self b _) _

end Cert.KernelIdeal.TileStep

end
-- ==== Proof.BlockReads.lean ====
/-
  What the region reads: each window's block at a grid point as entries of its array, and the two arrays the host
  reshapes before the region.

  The grid has 14 column blocks of 1024 output columns (outer coordinate) by 4 tiles of 1024 feature rows (inner
  coordinate), so point `t` is tile `t % 4` of column block `t / 4`. At point `t`:
    * the block of the flattened `x` is all 256 rows by feature rows `1024 (t % 4) + e`;
    * the integer block is feature rows `1024 (t % 4) + e` by columns `1024 (t / 4) + c`;
    * the scale and zero-point blocks are groups `8 (t % 4) + g` by the same columns;
    * the bias block is the one bias row at those columns.
  The flattened `x` has row `r` = `(r / 32, r % 32)` of `x`; the bias row is the bias vector.
-/
import proofs.«132491_j19292993094040_1_alg».proof.Proof.Gen.KernelIdeal.Frame
import proofs.«132491_j19292993094040_1_alg».proof.Proof.DequantProduct
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)

namespace Cert.KernelIdeal.BlockReads

open Cert.KernelIdeal Cert.KernelIdeal.Gen Cert.DequantProduct

variable {F : FTy → Type} [FloatOps F]
variable (m : (ℓ : Loc nD τ sig) → Buf (Elt F) ℓ)

/-- The blocks the body loads at point `t`, by their literal types. -/
abbrev xblk (c : Dev nD) (t : Fin cfg0.N) : Vec F S256x1024 .f32 := iblk m c 0 t
abbrev qblk (c : Dev nD) (t : Fin cfg0.N) : Vec F S1024x1024 .i32 := iblk m c 1 t
abbrev sblk (c : Dev nD) (t : Fin cfg0.N) : Vec F S8x1024 .f32 := iblk m c 2 t
abbrev zblk (c : Dev nD) (t : Fin cfg0.N) : Vec F S8x1024 .f32 := iblk m c 3 t
abbrev bblk (c : Dev nD) (t : Fin cfg0.N) : Vec F S1x1024 .f32 := iblk m c 4 t
/-- The arrays the region finds, by their literal types. -/
abbrev xarr (c : Dev nD) : Vec F S256x4096 .f32 := V m c main_v0
abbrev qarr (c : Dev nD) : Vec F S4096x14336 .i32 := V m c main_arg1
abbrev sarr (c : Dev nD) : Vec F S32x14336 .f32 := V m c main_arg2
abbrev zarr (c : Dev nD) : Vec F S32x14336 .f32 := V m c main_arg3
abbrev barr (c : Dev nD) : Vec F S1x14336 .f32 := V m c main_v1

/-- The windows' block indices at point `t`: tile `t % 4`, column block `t / 4`. -/
theorem index_facts : ∀ t : Fin cfg0.N,
    win0_0.index t (0 : Fin 2) = 0 ∧ win0_0.index t (1 : Fin 2) = t.val % 4
    ∧ win0_1.index t (0 : Fin 2) = t.val % 4 ∧ win0_1.index t (1 : Fin 2) = t.val / 4
    ∧ win0_2.index t (0 : Fin 2) = t.val % 4 ∧ win0_2.index t (1 : Fin 2) = t.val / 4
    ∧ win0_3.index t (0 : Fin 2) = t.val % 4 ∧ win0_3.index t (1 : Fin 2) = t.val / 4
    ∧ win0_4.index t (0 : Fin 2) = 0 ∧ win0_4.index t (1 : Fin 2) = t.val / 4
    ∧ win0_5.index t (0 : Fin 2) = 0 ∧ win0_5.index t (1 : Fin 2) = t.val / 4 :=
  (by decide +kernel : ∀ t : Fin grid0.N, _)

theorem xblk_apply (c : Dev nD) (t : Fin cfg0.N) (p : Fin 256) (e : Fin 1024) (k : Fin 4096)
    (hk : k.val = 1024 * (t.val % 4) + e.val) : xblk m c t (ix2 p e) = xarr m c (ix2 p k) := by
  obtain ⟨h0, h1, -⟩ := index_facts t
  show iblk m c 0 t (ix2 p e) = _
  unfold iblk
  rw [View.read_apply]
  refine congrArg (V m c main_v0) (funext fun a => Fin.ext ?_)
  match a with
  | ⟨0, _⟩ => show win0_0.index t 0 * 256 + 1 * p.val = p.val; rw [h0]; omega
  | ⟨1, _⟩ => show win0_0.index t 1 * 1024 + 1 * e.val = k.val; rw [h1, hk]; omega

theorem qblk_apply (c : Dev nD) (t : Fin cfg0.N) (e d : Fin 1024) (k : Fin 4096) (n : Fin 14336)
    (hk : k.val = 1024 * (t.val % 4) + e.val) (hn : n.val = 1024 * (t.val / 4) + d.val) :
    qblk m c t (ix2 e d) = qarr m c (ix2 k n) := by
  obtain ⟨-, -, h0, h1, -⟩ := index_facts t
  show iblk m c 1 t (ix2 e d) = _
  unfold iblk
  rw [View.read_apply]
  refine congrArg (V m c main_arg1) (funext fun a => Fin.ext ?_)
  match a with
  | ⟨0, _⟩ => show win0_1.index t 0 * 1024 + 1 * e.val = k.val; rw [h0, hk]; omega
  | ⟨1, _⟩ => show win0_1.index t 1 * 1024 + 1 * d.val = n.val; rw [h1, hn]; omega

theorem sblk_apply (c : Dev nD) (t : Fin cfg0.N) (g : Fin 8) (d : Fin 1024) (G : Fin 32) (n : Fin 14336)
    (hG : G.val = 8 * (t.val % 4) + g.val) (hn : n.val = 1024 * (t.val / 4) + d.val) :
    sblk m c t (ix2 g d) = sarr m c (ix2 G n) := by
  obtain ⟨-, -, -, -, h0, h1, -⟩ := index_facts t
  show iblk m c 2 t (ix2 g d) = _
  unfold iblk
  rw [View.read_apply]
  refine congrArg (V m c main_arg2) (funext fun a => Fin.ext ?_)
  match a with
  | ⟨0, _⟩ => show win0_2.index t 0 * 8 + 1 * g.val = G.val; rw [h0, hG]; omega
  | ⟨1, _⟩ => show win0_2.index t 1 * 1024 + 1 * d.val = n.val; rw [h1, hn]; omega

theorem zblk_apply (c : Dev nD) (t : Fin cfg0.N) (g : Fin 8) (d : Fin 1024) (G : Fin 32) (n : Fin 14336)
    (hG : G.val = 8 * (t.val % 4) + g.val) (hn : n.val = 1024 * (t.val / 4) + d.val) :
    zblk m c t (ix2 g d) = zarr m c (ix2 G n) := by
  obtain ⟨-, -, -, -, -, -, h0, h1, -⟩ := index_facts t
  show iblk m c 3 t (ix2 g d) = _
  unfold iblk
  rw [View.read_apply]
  refine congrArg (V m c main_arg3) (funext fun a => Fin.ext ?_)
  match a with
  | ⟨0, _⟩ => show win0_3.index t 0 * 8 + 1 * g.val = G.val; rw [h0, hG]; omega
  | ⟨1, _⟩ => show win0_3.index t 1 * 1024 + 1 * d.val = n.val; rw [h1, hn]; omega

theorem bblk_apply (c : Dev nD) (t : Fin cfg0.N) (d : Fin 1024) (n : Fin 14336)
    (hn : n.val = 1024 * (t.val / 4) + d.val) :
    bblk m c t (ix2 (0 : Fin 1) d) = barr m c (ix2 (0 : Fin 1) n) := by
  obtain ⟨-, -, -, -, -, -, -, -, h0, h1, -⟩ := index_facts t
  show iblk m c 4 t (ix2 (0 : Fin 1) d) = _
  unfold iblk
  rw [View.read_apply]
  refine congrArg (V m c main_v1) (funext fun a => Fin.ext ?_)
  match a with
  | ⟨0, _⟩ => show win0_4.index t 0 * 1 + 1 * 0 = 0; rw [h0]
  | ⟨1, _⟩ => show win0_4.index t 1 * 1024 + 1 * d.val = n.val; rw [h1, hn]; omega

/-! ## The arrays as the region finds them -/

theorem xarr_eq (c : Dev nD) :
    xarr m c = shapeCast S256x4096 (m ((c : Thread nD τ).loc main_arg0)) shapeCasts_S8x32x4096_S256x4096 := by
  show StableHlo.after hostOps0 (fun b => m (c, b)) (Proc.devRef .tc main_v0) = _
  after_results
  rfl

/-- Flattened row `r` of `x` is row `(r / 32, r % 32)`. -/
theorem xarr_apply (c : Dev nD) (r : Fin 256) (k : Fin 4096) :
    xarr m c (ix2 r k) = m ((c : Thread nD τ).loc main_arg0) (ix3 (rowB r) (rowS r) k) := by
  rw [xarr_eq]
  refine shapeCast_apply _ shapeCasts_S8x32x4096_S256x4096 (ix2 r k) (ix3 (rowB r) (rowS r) k) ?_
  rw [Shape.rowMajor_val_three, Shape.rowMajor_val_two]
  show (r.val / 32 * 32 + r.val % 32) * 4096 + k.val = r.val * 4096 + k.val
  omega

theorem barr_eq (c : Dev nD) :
    barr m c = shapeCast S1x14336 (m ((c : Thread nD τ).loc main_arg4)) shapeCasts_S14336_S1x14336 := by
  show StableHlo.after hostOps0 (fun b => m (c, b)) (Proc.devRef .tc main_v1) = _
  after_results
  rfl

/-- The bias row is the bias vector. -/
theorem barr_apply (c : Dev nD) (n : Fin 14336) :
    barr m c (ix2 (0 : Fin 1) n) = m ((c : Thread nD τ).loc main_arg4) (ix1 n) := by
  rw [barr_eq]
  refine shapeCast_apply _ shapeCasts_S14336_S1x14336 (ix2 (0 : Fin 1) n) (ix1 n) ?_
  rw [Shape.rowMajor_val_one, Shape.rowMajor_val_two]
  show n.val = 0 * 14336 + n.val
  omega

theorem qarr_eq (c : Dev nD) : qarr m c = m ((c : Thread nD τ).loc main_arg1) := V_main_arg1 m c
theorem sarr_eq (c : Dev nD) : sarr m c = m ((c : Thread nD τ).loc main_arg2) := V_main_arg2 m c
theorem zarr_eq (c : Dev nD) : zarr m c = m ((c : Thread nD τ).loc main_arg3) := V_main_arg3 m c

end Cert.KernelIdeal.BlockReads

end
-- ==== Proof.Accumulation.lean ====
/-
  The accumulation across the grid, and the kernel's result.

  Point `t` of the grid is tile `t % 4` of column block `t / 4`. Within a column block the scratch accumulator
  is reset at the first tile and carried to the next three, so after point `t` it holds, at row `p` and column
  `1024 (t / 4) + d`, the accumulator `acc` after tile `t % 4`: by induction on the point, the first tile of
  a block starting from the zero block and every other tile adding its partial sum to what the point before left.
  At the last tile the output block is that accumulator plus the bias, i.e. the flattened product at those columns;
  that block is written back, the fourteen written blocks tile the 256 × 14336 array, and the host's final reshape
  reads row `32 b + s` at `(b, s)`.
-/
import proofs.«132491_j19292993094040_1_alg».proof.Proof.Gen.KernelIdeal.Frame
import proofs.«132491_j19292993094040_1_alg».proof.Proof.BodyPieces
import proofs.«132491_j19292993094040_1_alg».proof.Proof.TileStep
import proofs.«132491_j19292993094040_1_alg».proof.Proof.BlockReads
import proofs.«132491_j19292993094040_1_alg».proof.Proof.DequantProduct
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)
open scoped BigOperators

namespace Cert.KernelIdeal.Accumulation

open Cert.KernelIdeal Cert.KernelIdeal.Gen Cert.DequantProduct Cert.KernelIdeal.BlockReads Cert.KernelIdeal.TileStep
  Cert.KernelIdeal.Pieces

variable (m : (ℓ : Loc nD τ sig) → Buf (Elt Ideal) ℓ) (ρ : Dev nD → PrngReg)

/-- The five argument arrays on core `c`. -/
abbrev X (c : Dev nD) : Sx.Idx → EReal := m ((c : Thread nD τ).loc main_arg0)
abbrev Q (c : Dev nD) : Sq.Idx → BitVec 32 := m ((c : Thread nD τ).loc main_arg1)
abbrev Sc (c : Dev nD) : Sg.Idx → EReal := m ((c : Thread nD τ).loc main_arg2)
abbrev Zp (c : Dev nD) : Sg.Idx → EReal := m ((c : Thread nD τ).loc main_arg3)
abbrev Bi (c : Dev nD) : Sb.Idx → EReal := m ((c : Thread nD τ).loc main_arg4)

/-- The flattened product of the argument arrays. -/
abbrev flat (c : Dev nD) : Sy2.Idx → EReal := product2 (X m c) (Q m c) (Sc m c) (Zp m c) (Bi m c)

theorem N56 : cfg0.N = 56 := N_0

/-- Column `d` of point `t`'s column block. -/
def col (t : Fin cfg0.N) (d : Fin 1024) : Fin 14336 :=
  ⟨1024 * (t.val / 4) + d.val, by have := t.isLt; have := N56; have := d.isLt; omega⟩

/-- The product of point `t`'s blocks at `(p, d)` is tile `t % 4`'s partial sum at row `p`, column `col t d`. -/
theorem tile_sum (c : Dev nD) (t : Fin cfg0.N) (p : Fin 256) (d : Fin 1024) :
    ∑ e : Fin 1024, xblk m c t (ix2 p e) * ((((qblk m c t (ix2 e d)).toInt : ℝ) : EReal) * sblk m c t (ix2 (grp8 e) d) + zblk m c t (ix2 (grp8 e) d))
      = tile (X m c) (Q m c) (Sc m c) (Zp m c) p (col t d) (t.val % 4) := by
  unfold tile
  refine Finset.sum_congr rfl fun e _ => ?_
  have ht := t.isLt
  have hN := N56
  have he := e.isLt
  have hk : 1024 * (t.val % 4) + e.val < 4096 := by omega
  unfold termN
  rw [dif_pos hk]
  unfold term weight
  have hg : (grp ⟨1024 * (t.val % 4) + e.val, hk⟩).val = 8 * (t.val % 4) + (grp8 e).val := by
    show (1024 * (t.val % 4) + e.val) / 128 = 8 * (t.val % 4) + e.val / 128
    omega
  rw [xblk_apply m c t p e ⟨_, hk⟩ rfl, xarr_apply,
    qblk_apply m c t e d ⟨_, hk⟩ (col t d) rfl rfl, qarr_eq,
    sblk_apply m c t (grp8 e) d (grp ⟨_, hk⟩) (col t d) hg rfl, sarr_eq,
    zblk_apply m c t (grp8 e) d (grp ⟨_, hk⟩) (col t d) hg rfl, zarr_eq]

/-- At the first tile of a column block the accumulator starts from the zero block. -/
theorem scratch_first (c : Dev nD) (t : Fin cfg0.N) (h0 : t.val % 4 = 0) (p : Fin 256) (d : Fin 1024) :
    (outsAt0 m c t.val t.isLt).2 (ix2 p d) = 0 + tile (X m c) (Q m c) (Sc m c) (Zp m c) p (col t d) (t.val % 4) := by
  have h1 : ¬t.val % 4 = 3 := by omega
  rw [outsAt0_A m c t h0 h1]
  dsimp only
  refine (congrFun (scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t)) (ix2 p d)).trans ?_
  refine (accumulate_apply (qblk m c t) (sblk m c t) (zblk m c t) (xblk m c t) (k0_pay1 (F := Ideal)) p d).trans ?_
  rw [zero_apply, tile_sum]

/-- At every other tile it adds the tile's partial sum to what the point before left. -/
theorem scratch_next (c : Dev nD) (t : Fin cfg0.N) (h0 : ¬t.val % 4 = 0) (p : Fin 256) (d : Fin 1024) :
    (outsAt0 m c t.val t.isLt).2 (ix2 p d)
      = (outsAt0 m c (t.val - 1) (Nat.lt_of_le_of_lt (Nat.sub_le _ _) t.isLt)).2 (ix2 p d) + tile (X m c) (Q m c) (Sc m c) (Zp m c) p (col t d) (t.val % 4) := by
  by_cases h1 : t.val % 4 = 3
  · rw [outsAt0_C m c t h0 h1]
    dsimp only
    refine (congrFun (scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2) (ix2 p d)).trans ?_
    refine (accumulate_apply (qblk m c t) (sblk m c t) (zblk m c t) (xblk m c t) (outsAt0 m c (t.val - 1) (Nat.lt_of_le_of_lt (Nat.sub_le _ _) t.isLt)).2 p d).trans ?_
    rw [tile_sum]
  · rw [outsAt0_B m c t h0 h1]
    dsimp only
    refine (congrFun (scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2) (ix2 p d)).trans ?_
    refine (accumulate_apply (qblk m c t) (sblk m c t) (zblk m c t) (xblk m c t) (outsAt0 m c (t.val - 1) (Nat.lt_of_le_of_lt (Nat.sub_le _ _) t.isLt)).2 p d).trans ?_
    rw [tile_sum]

/-- After point `n` the scratch holds the accumulator after tile `n % 4` of its column block. -/
theorem scratch_inv (c : Dev nD) : ∀ (n : ℕ) (hn : n < cfg0.N) (p : Fin 256) (d : Fin 1024),
    (outsAt0 m c n hn).2 (ix2 p d) = acc (X m c) (Q m c) (Sc m c) (Zp m c) p (col ⟨n, hn⟩ d) (n % 4) := by
  intro n
  induction n with
  | zero =>
    intro hn p d
    exact scratch_first m c ⟨0, hn⟩ rfl p d
  | succ n ih =>
    intro hn p d
    by_cases h0 : (n + 1) % 4 = 0
    · refine (scratch_first m c ⟨n + 1, hn⟩ h0 p d).trans ?_
      show 0 + tile (X m c) (Q m c) (Sc m c) (Zp m c) p (col ⟨n + 1, hn⟩ d) ((n + 1) % 4) = acc (X m c) (Q m c) (Sc m c) (Zp m c) p (col ⟨n + 1, hn⟩ d) ((n + 1) % 4)
      rw [h0]
      rfl
    · refine (scratch_next m c ⟨n + 1, hn⟩ h0 p d).trans ?_
      show (outsAt0 m c n (Nat.lt_of_succ_lt hn)).2 (ix2 p d) + tile (X m c) (Q m c) (Sc m c) (Zp m c) p (col ⟨n + 1, hn⟩ d) ((n + 1) % 4)
        = acc (X m c) (Q m c) (Sc m c) (Zp m c) p (col ⟨n + 1, hn⟩ d) ((n + 1) % 4)
      rw [ih (Nat.lt_of_succ_lt hn) p d]
      have hc : col ⟨n, Nat.lt_of_succ_lt hn⟩ d = col ⟨n + 1, hn⟩ d :=
        Fin.ext (by show 1024 * (n / 4) + d.val = 1024 * ((n + 1) / 4) + d.val; omega)
      have hm : (n + 1) % 4 = n % 4 + 1 := by omega
      rw [hc, hm]
      rfl

/-- At the last tile the output block is the scratch just written plus the bias row. -/
theorem out_of_scratch (c : Dev nD) (t : Fin cfg0.N) (h0 : ¬t.val % 4 = 0) (h3 : t.val % 4 = 3) :
    (outsAt0 m c t.val t.isLt).1 = k0_pay3 (F := Ideal) (outsAt0 m c t.val t.isLt).2 (bblk m c t) := by
  rw [outsAt0_C m c t h0 h3]
  dsimp only
  exact (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) (iblk m c 3 t) (iblk m c 4 t) (outsAt0 m c (t.val - 1) (Nat.lt_of_le_of_lt (Nat.sub_le _ _) t.isLt)).2).trans
    (congrArg (fun a => k0_pay3 (F := Ideal) a (bblk m c t))
      (scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h3) (iblk m c 0 t) (iblk m c 1 t) (iblk m c 2 t) (iblk m c 3 t) (iblk m c 4 t) (outsAt0 m c (t.val - 1) (Nat.lt_of_le_of_lt (Nat.sub_le _ _) t.isLt)).2).symm)

/-- So it is the flattened product at the block's columns. -/
theorem out_last (c : Dev nD) (t : Fin cfg0.N) (h3 : t.val % 4 = 3) (p : Fin 256) (d : Fin 1024) :
    (outsAt0 m c t.val t.isLt).1 (ix2 p d) = flat m c (ix2 p (col t d)) := by
  have h0 : ¬t.val % 4 = 0 := by omega
  rw [out_of_scratch m c t h0 h3]
  refine (bias_apply _ (bblk m c t) p d).trans ?_
  rw [scratch_inv m c t.val t.isLt p d, h3, acc_three, bblk_apply m c t d (col t d) rfl, barr_apply]
  rfl

/-! ## The written blocks tile the output array -/

/-- What point `t` writes back is block `t` of the flattened product. -/
theorem flushed_eq (c : Dev nD) (t : Fin cfg0.N) (hf : (cfg0.win 5).flush t = true) :
    (dats m 0 c).flushed 5 t = ((cfg0.win 5).blk t).view.read (Elt Ideal) (flat m c) := by
  have h3 : t.val % 4 = 3 := (flush0_5 t).mp hf
  obtain ⟨-, -, -, -, -, -, -, -, -, -, i0, i1⟩ := index_facts t
  show (cfg0.win 5).cut (grid0.coords t) ((dats m 0 c).after 5 t) = _
  rw [after0_5]
  funext j
  obtain ⟨p, d, rfl⟩ : ∃ (p : Fin 256) (d : Fin 1024), j = ix2 p d := ⟨j 0, j 1, eq_ix2 j⟩
  show (outsAt0 m c t.val t.isLt).1 (ix2 p d) = flat m c (((cfg0.win 5).blk t).view.emb (ix2 p d))
  rw [out_last m c t h3 p d]
  refine congrArg (flat m c) (funext fun a => Fin.ext ?_)
  match a with
  | ⟨0, _⟩ => show p.val = win0_5.index t (0 : Fin 2) * 256 + 1 * p.val; rw [i0]; omega
  | ⟨1, _⟩ => show 1024 * (t.val / 4) + d.val = win0_5.index t (1 : Fin 2) * 1024 + 1 * d.val; rw [i1]; omega

/-- An index of the array is in point `t`'s block iff each coordinate is in the block's range on its axis. -/
theorem mem_blk (t : Fin cfg0.N) (i : S256x14336.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v2).slice (win0_5.rect t)).set ↔ _
  rw [View.set_slice_whole, Rect.mem_set_unit]
  exact Iff.rfl

/-- Column `n` lies in the block written back at the last tile of column block `n / 1024`. -/
theorem cover (i : S256x14336.Idx) : ∃ t : Fin cfg0.N, (cfg0.win 5).flush t = true ∧ i ∈ ((cfg0.win 5).blk t).view.set := by
  have hi0 : (i 0).val < 256 := (i 0).isLt
  have hi1 : (i 1).val < 14336 := (i 1).isLt
  have hN := N56
  let t : Fin cfg0.N := ⟨4 * ((i 1).val / 1024) + 3, by omega⟩
  obtain ⟨-, -, -, -, -, -, -, -, -, -, i0, i1⟩ := index_facts t
  have i1' : win0_5.index t (1 : Fin 2) = (i 1).val / 1024 := by rw [i1]; show (4 * ((i 1).val / 1024) + 3) / 4 = _; omega
  refine ⟨t, (flush0_5 t).mpr (by show (4 * ((i 1).val / 1024) + 3) % 4 = 3; omega), ?_⟩
  rw [mem_blk]
  intro a
  match a with
  | ⟨0, _⟩ => show win0_5.index t (0 : Fin 2) * 256 ≤ (i 0).val ∧ (i 0).val < win0_5.index t (0 : Fin 2) * 256 + 256; rw [i0]; omega
  | ⟨1, _⟩ => show win0_5.index t (1 : Fin 2) * 1024 ≤ (i 1).val ∧ (i 1).val < win0_5.index t (1 : Fin 2) * 1024 + 1024; rw [i1']; omega

/-- The output array ends at the flattened product. -/
theorem final (c : Dev nD) : (dats m 0 c).arrAt 5 cfg0.N = flat m c :=
  (dats m 0 c).arrAt_eq_of_cover 5 (flat m c) (flushed_eq m c) cover

/-! ## The host's final reshape, and the run -/

/-- The result buffer after the host's last operation: the output array viewed as 8 × 32 rows. -/
theorem tail_eq (c : Dev nD) :
    Pipeline.afterTail₀ cfgs (dats m) 0 (V0 m) [hostOps1] c main_v3
      = shapeCast S8x32x14336 (flat m c) shapeCasts_S256x14336_S8x32x14336 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = flat m c :=
    (Pipeline.withArrays_arr spec0 launch0.win.arr_inj c (V0 m c) (fun w => (dats m 0 c).arrAt w cfg0.N) 5).trans (final m c)
  rw [e]
  rfl

/-- Row `32 b + s` of the flattened product read at `(b, s)`: the product. -/
theorem result_eq (c : Dev nD) :
    shapeCast S8x32x14336 (flat m c) shapeCasts_S256x14336_S8x32x14336
      = product (X m c) (Q m c) (Sc m c) (Zp m c) (Bi m c) := by
  funext i
  have h0 : (i 0).val < 8 := (i 0).isLt
  have h1 : (i 1).val < 32 := (i 1).isLt
  refine (shapeCast_apply (flat m c) shapeCasts_S256x14336_S8x32x14336 i (ix2 (⟨(i 0).val * 32 + (i 1).val, by omega⟩ : Fin 256) (i 2)) ?_).trans ?_
  · rw [Shape.rowMajor_val_two, Shape.rowMajor_val_three]
    rfl
  · exact product2_flat (X m c) (Q m c) (Sc m c) (Zp m c) (Bi m c) i _ rfl

/-- The kernel's run, read: the result buffer ends at the product of the argument arrays, and the five argument
    arrays end unchanged (two of them no window stages; three are staged inputs, which keep their contents). -/
theorem run : θ_run defs (onTc (τ := τ) (main (F := Ideal))) ⟨m, fun _ => 0, ρ⟩ fun r => ∀ c : Dev nD,
      r.2.mem ((c.tc : Thread nD τ).loc main_v3) = product (X m c) (Q m c) (Sc m c) (Zp m c) (Bi m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Accumulation

end
-- ==== Proof.lean ====
/-
  A group-wise affine dequantised matrix product, tiled, against the plain one.

  The kernel computes `y = x · w + bias` for `w[k, n] = q[k, n] · scale[k / 128, n] + zero[k / 128, n]` on a grid of
  14 column blocks by 4 tiles of 1024 feature rows: per column block a 256 × 1024 accumulator starts at zero, each tile
  adds the product of its block of `x` with its dequantised block of weights, and the last tile adds the bias and writes
  the block out. The reference dequantises all 4096 rows at once and contracts them in one product. Over the extended
  reals a change of float format is the identity and both products are plain sums, so the two results differ only in
  the grouping of one sum of 4096 terms: `(((0 + t₀) + t₁) + t₂) + t₃` against the whole sum, equal because addition of
  extended reals is commutative and associative with neutral element 0. No finiteness of the inputs is used.

  The idealization rewrote nothing, so the fourth claim is trivial; the kernels' frames are the generated ones; the
  reference's frame is its run with the result dropped.
-/
import proofs.«132491_j19292993094040_1_alg».proof.Defs
import proofs.«132491_j19292993094040_1_alg».proof.Proof.Gen.Kernel
import proofs.«132491_j19292993094040_1_alg».proof.Proof.Gen.Kernel.Frame
import proofs.«132491_j19292993094040_1_alg».proof.Proof.Gen.KernelIdeal
import proofs.«132491_j19292993094040_1_alg».proof.Proof.Gen.KernelIdeal.Frame
import proofs.«132491_j19292993094040_1_alg».proof.Proof.Gen.ReferenceIdeal
import proofs.«132491_j19292993094040_1_alg».proof.Proof.Gen.ReferenceIdeal.Run
import proofs.«132491_j19292993094040_1_alg».proof.Proof.Gen.ReferenceIdeal.Read
import proofs.«132491_j19292993094040_1_alg».proof.Proof.Gen.Pre_finite_inputs
import proofs.«132491_j19292993094040_1_alg».proof.Proof.ReferenceProduct
import proofs.«132491_j19292993094040_1_alg».proof.Proof.Accumulation
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end at the dequantised product of the argument arrays: the kernel by the accumulation across its
    grid, the reference stage by stage. -/
theorem algebraic : Cert.algebraic_KernelIdeal_ReferenceIdeal := by
  intro m ρ m' ρ' _ hagree
  refine ⟨fun c => Cert.DequantProduct.product (Cert.KernelIdeal.Accumulation.X m c) (Cert.KernelIdeal.Accumulation.Q m c)
    (Cert.KernelIdeal.Accumulation.Sc m c) (Cert.KernelIdeal.Accumulation.Zp m c) (Cert.KernelIdeal.Accumulation.Bi m c),
    Cert.KernelIdeal.Accumulation.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v12_eq _ _ _ _ _).trans (Cert.ReferenceProduct.stage_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
